-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnLayer.lean ====
/-
  One graph-convolution layer over the extended reals, as a function of its four argument arrays:
  features x [10000, 128], adjacency adj [10000, 10000], weights w [128, 128], bias b [128].

    support (k, n) = ∑ j, x (k, j) · w (j, n)
    layer   (i, n) = gelu (∑ k, adj (i, k) · support (k, n) + b n)

  with gelu the tanh form  u · (1/2 · (1 + tanh (c₂ · (u + c₁ · (u · (u · u))))))  whose four constants are kept as
  the binary32 words both programs print (the same word on both sides is never evaluated).
-/
import Idealize.ShloMosaic.PureOps.Ideal
import Idealize.ShloMosaic.Lib.ValueIdx

noncomputable section

namespace Cert.Gcn

open Idealize.ShloMosaic Idealize.ShloMosaic.ValueIdx

/-- The tanh-form GELU on an extended real, the cube grouped as u · (u · u). -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

/-- The same function with the cube grouped as (u · u) · u: multiplication of extended reals commutes. -/
theorem gelu_cube_left (u : EReal) :
    u * (Ideal.ofBits .f32 0x3F000000#32 * (Ideal.ofBits .f32 0x3F800000#32
      + Ideal.tanh (Ideal.ofBits .f32 0x3F4C422A#32 * (u + Ideal.ofBits .f32 0x3D372713#32 * ((u * u) * u))))) = gelu u := by
  unfold gelu
  rw [mul_comm (u * u) u]

/-- The transformed features: entry (k, n) of x · w. -/
def support (x : (⟨2, ![10000, 128]⟩ : Shape).Idx → EReal) (w : (⟨2, ![128, 128]⟩ : Shape).Idx → EReal)
    (k : Fin 10000) (n : Fin 128) : EReal :=
  ∑ j : Fin 128, x (ix2 k j) * w (ix2 j n)

/-- The layer before its activation: entry (i, n) of adj · (x · w) + b. -/
def preact (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) (i : Fin 10000) (n : Fin 128) : EReal :=
  (∑ k : Fin 10000, adj (ix2 i k) * support x w k n) + b (ix1 n)

/-- The layer's result array. -/
def layer (x : (⟨2, ![10000, 128]⟩ : Shape).Idx → EReal) (adj : (⟨2, ![10000, 10000]⟩ : Shape).Idx → EReal)
    (w : (⟨2, ![128, 128]⟩ : Shape).Idx → EReal) (b : (⟨1, ![128]⟩ : Shape).Idx → EReal) :
    (⟨2, ![10000, 128]⟩ : Shape).Idx → EReal :=
  fun i => gelu (preact x adj w b (i 0) (i 1))

end Cert.Gcn

end
-- ==== Proof.RefLayer.lean ====
/-
  The reference program's result, read one host operation at a time, is the layer: its two matrix products are the
  nested sums of `preact`, its two broadcasts put the bias b n at every row, and its elementwise tail is the tanh-form
  GELU with the cube grouped (u · u) · u.
-/
import proofs.«162039_g45947560132727_cont_8to1_c_29_4_alg».proof.Proof.Gen.ReferenceIdeal.Read
import proofs.«162039_g45947560132727_cont_8to1_c_29_4_alg».proof.Proof.GcnLayer

noncomputable section

namespace Cert.ReferenceIdeal.RefLayer

open Cert.ReferenceIdeal Cert.ReferenceIdeal.Read Idealize.ShloMosaic Idealize.ShloMosaic.ValueIdx Cert.Gcn

/-- The pre-activation stage at (i, n). -/
theorem val_main_v4_at (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) (i : Fin 10000) (n : Fin 128) :
    val_main_v4 (F := Ideal) x0 x1 x2 x3 (ix2 i n) = preact x0 x1 x2 x3 i n := by
  have e1 : ∀ k : Fin 10000, lidx_main_v1 (ix2 i n) k = ix2 i k := fun k =>
    funext fun a => Fin.ext (by match a with | ⟨0, _⟩ => rfl | ⟨1, _⟩ => rfl)
  have e2 : ∀ k : Fin 10000, ridx_main_v1 (ix2 i n) k = ix2 k n := fun k =>
    funext fun a => Fin.ext (by match a with | ⟨0, _⟩ => rfl | ⟨1, _⟩ => rfl)
  have e3 : ∀ (k : Fin 10000) (j : Fin 128), lidx_main_v0 (ix2 k n) j = ix2 k j := fun k j =>
    funext fun a => Fin.ext (by match a with | ⟨0, _⟩ => rfl | ⟨1, _⟩ => rfl)
  have e4 : ∀ (k : Fin 10000) (j : Fin 128), ridx_main_v0 (ix2 k n) j = ix2 j n := fun k j =>
    funext fun a => Fin.ext (by match a with | ⟨0, _⟩ => rfl | ⟨1, _⟩ => rfl)
  have e5 : idx_main_v2 (idx_main_v3 (ix2 i n)) = ix1 n :=
    funext fun a => Fin.ext (by match a with | ⟨0, _⟩ => rfl)
  rw [val_main_v4_apply, val_main_v1_apply, val_main_v3_apply, val_main_v2_apply, e5]
  simp only [e1, e2, val_main_v0_apply, e3, e4, Ideal.addf_def]
  rfl

/-- The reference's last stage is the layer. -/
theorem val_main_v17_eq_layer (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v17 (F := Ideal) x0 x1 x2 x3 = layer x0 x1 x2 x3 := by
  funext i
  obtain ⟨p, q, rfl⟩ : ∃ (p : Fin 10000) (q : Fin 128), i = ix2 p q := ⟨i 0, i 1, eq_ix2 i⟩
  rw [val_main_v17_apply, val_main_v16_apply, val_main_v15_apply, val_main_cst_2_apply, val_main_v14_apply,
    val_main_v13_apply, val_main_cst_1_apply, val_main_v12_apply, val_main_v11_apply, val_main_v10_apply,
    val_main_cst_0_apply, val_main_v9_apply, val_main_v8_apply, val_main_v7_apply, val_main_cst_apply,
    val_main_v6_apply, val_main_v5_apply, val_main_v4_at]
  simp only [Ideal.mulf_def, Ideal.addf_def, Ideal.hostUnary_tanh_def, Ideal.ofBits_def]
  exact gelu_cube_left _

end Cert.ReferenceIdeal.RefLayer

end
-- ==== Proof.PointContents.lean ====
/-
  What one grid point leaves behind, as values of the point's input blocks.

  At the first point the body stores the transformed features into the carried array, reads them back, and stores
  the activated product of the point's adjacency rows with them; at every later point it stores nothing into the
  carried array and the activated product is taken with what the point before left there.
-/
import proofs.«162039_g45947560132727_cont_8to1_c_29_4_alg».proof.Proof.Gen.KernelIdeal.Frame
import Idealize.ShloMosaic.Lib.Pipeline.Value
import Idealize.ShloMosaic.Lib.Tactic

noncomputable section

namespace Cert.KernelIdeal.PointContents

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- First point: the carried array ends at the transformed features of the two whole blocks. -/
theorem carried_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S400x10000 .f32) (x1 : Vec F S10000x128 .f32) (x2 : Vec F S128x128 .f32) (x3 : Vec F S1x128 .f32) :
    sout0_A_0 c i arg1 harg1 arg2 harg2 arg3 harg3 arg4 harg4 arg5 harg5 arg6 harg6 hc0 x0 x1 x2 x3 = k0_pay1 x1 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg2.read_unread, harg3.read_unread, View.ld_unit_zero (S := S10000x128) hz,
    View.ld_unit_zero (S := S128x128) hz]

/-- First point: the output block ends at the second store's value of the adjacency rows, the features just kept,
    and the bias row. -/
theorem block_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .bf16) (harg6 : arg6.IsWhole) (hc0 : cond0_0 i)
    (x0 : Vec F S400x10000 .f32) (x1 : Vec F S10000x128 .f32) (x2 : Vec F S128x128 .f32) (x3 : Vec F S1x128 .f32) :
    out0_A_4 c i arg1 harg1 arg2 harg2 arg3 harg3 arg4 harg4 arg5 harg5 arg6 harg6 hc0 x0 x1 x2 x3 = k0_pay2 x0 (k0_pay1 x1 x2) x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S400x10000) hz, View.ld_unit_zero (S := S10000x128) hz, View.ld_unit_zero (S := S128x128) hz,
    View.ld_unit_zero (S := S1x128) hz, View.readCov_unit_zero (S := S10000x128) _ hz]

/-- A later point: the output block ends at the second store's value of the adjacency rows, what the point before
    left in the carried array, and the bias row. -/
theorem block_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i)
    (x0 : Vec F S400x10000 .f32) (x1 : Vec F S10000x128 .f32) (x2 : Vec F S128x128 .f32) (x3 : Vec F S1x128 .f32)
    (xs0 : Vec F S10000x128 .bf16) :
    out0_B_4 c i arg1 harg1 arg2 harg2 arg3 harg3 arg4 harg4 arg5 harg5 arg6 harg6 hc0 x0 x1 x2 x3 xs0 = k0_pay2 x0 xs0 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz]
  simp only [View.readAt_eq_ld, harg1.read_unread, harg4.read_unread, harg6.read_unread,
    View.ld_unit_zero (S := S400x10000) hz, View.ld_unit_zero (S := S10000x128) hz, View.ld_unit_zero (S := S1x128) hz]

end Cert.KernelIdeal.PointContents

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.PayloadAt.lean ====
/-
  The kernel body's two stored values, read at an index at the exact instance.

  The first store (taken at the grid's first point only) keeps the transformed features x · w: a change of float
  format is the identity on extended reals, so entry (k, n) is ∑ j, x (k, j) · w (j, n).
  The second store, at every point, is the tanh-form GELU of  a · s + bias  for the point's 400 rows a of the
  adjacency, the kept array s and the bias row: entry (p, n) is gelu (∑ k, a (p, k) · s (k, n) + bias (0, n)).
-/
import proofs.«162039_g45947560132727_cont_8to1_c_29_4_alg».proof.Proof.Gen.KernelIdeal.Skeleton
import proofs.«162039_g45947560132727_cont_8to1_c_29_4_alg».proof.Proof.GcnLayer
import proofs.«162039_g45947560132727_cont_8to1_c_29_4_alg».proof.Proof.LibMatmulPlain
import Idealize.ShloMosaic.Lib.Pipeline.Value
import Idealize.ShloMosaic.Lib.ValueLayout

noncomputable section

namespace Cert.KernelIdeal.PayloadAt

open Cert.KernelIdeal Cert.KernelIdeal.Gen Idealize.ShloMosaic Idealize.ShloMosaic.ValueIdx Cert.Gcn

/-- Entry (k, n) of the stored features is the sum over the 128 input features. -/
theorem pay1_at (x : Vec Ideal S10000x128 .f32) (w : Vec Ideal S128x128 .f32) (k : Fin 10000) (n : Fin 128) :
    k0_pay1 (F := Ideal) x w (ix2 k n) = support x w k n := by
  unfold k0_pay1
  refine (congrFun (shapeCast_self _ _) (ix2 k n)).trans ?_
  exact MatmulPlain.matmul_zero_apply (φ₁ := .f32) (φ₂ := .f32) none x w k n

/-- The elementwise tail of the second store is the GELU of its operand, entry by entry. -/
theorem tail_at (u : FVec Ideal S400x128 .f32) (i : S400x128.Idx) :
    mulf u (mulf (broadcast S400x128 (Scalar.ofBits (F := Ideal) .f32 0x3F000000#32))
      (addf (broadcast S400x128 (Scalar.ofBits (F := Ideal) .f32 0x3F800000#32))
        (tanh (mulf (broadcast S400x128 (Scalar.ofBits (F := Ideal) .f32 0x3F4C422A#32))
          (addf u (mulf (broadcast S400x128 (Scalar.ofBits (F := Ideal) .f32 0x3D372713#32)) (mulf u (mulf u u)))))))) i
      = gelu (u i) := rfl

/-- The operand of the tail: rows times the kept array, plus the bias row. -/
theorem preact_at (a : FVec Ideal S400x10000 .f32) (s : FVec Ideal S10000x128 .bf16) (bias : FVec Ideal S1x128 .f32)
    (p : Fin 400) (n : Fin 128) :
    (addf (F := Ideal) (matmul (F := Ideal) dot_S400x10000_S10000x128_S400x128_1_0_0_1_n_n none (truncf (F := Ideal) .bf16 a bitsLt_bf16_f32) s
          (constant (F := Ideal) S400x128 .f32 0x00000000#32))
        (broadcastTo S400x128 (shapeCast S1x128 bias shapeCasts_S1x128_S1x128) broadcasts_S1x128_S400x128) : FVec Ideal S400x128 .f32) (ix2 p n)
      = (∑ k : Fin 10000, a (ix2 p k) * s (ix2 k n)) + bias (ix2 (0 : Fin 1) n) := by
  refine congrArg₂ (· + ·) ?_ ?_
  · exact MatmulPlain.matmul_zero_apply (φ₁ := .bf16) (φ₂ := .bf16) none (truncf (F := Ideal) .bf16 a bitsLt_bf16_f32) s p n
  · rw [shapeCast_self]
    exact broadcastTo_1b_ab_apply bias _ p n

/-- Entry (p, n) of the second store. -/
theorem pay2_at (a : Vec Ideal S400x10000 .f32) (s : Vec Ideal S10000x128 .bf16) (bias : Vec Ideal S1x128 .f32)
    (p : Fin 400) (n : Fin 128) :
    k0_pay2 (F := Ideal) a s bias (ix2 p n)
      = gelu ((∑ k : Fin 10000, a (ix2 p k) * s (ix2 k n)) + bias (ix2 (0 : Fin 1) n)) := by
  unfold k0_pay2
  refine (tail_at _ _).trans ?_
  exact congrArg gelu (preact_at a s bias p n)

/-- The same at any index of the block, through its two coordinates. -/
theorem pay2_idx (a : Vec Ideal S400x10000 .f32) (s : Vec Ideal S10000x128 .bf16) (bias : Vec Ideal S1x128 .f32)
    (i : S400x128.Idx) :
    k0_pay2 (F := Ideal) a s bias i
      = gelu ((∑ k : Fin 10000, a (ix2 (i 0) k) * s (ix2 k (i 1))) + bias (ix2 (0 : Fin 1) (i 1))) := by
  obtain ⟨p, n, rfl⟩ : ∃ (p : Fin 400) (n : Fin 128), i = ix2 p n := ⟨i 0, i 1, eq_ix2 i⟩
  exact pay2_at a s bias p n

end Cert.KernelIdeal.PayloadAt

end
-- ==== Proof.KernelLayer.lean ====
/-
  The kernel's result array is the layer.

  The grid has 25 points; point t fetches rows 400·t … 400·t + 399 of the adjacency, and the whole feature, weight and
  bias arrays (their block index never moves). The first point keeps x · w in the carried array and no later point
  stores into it, so at every point the carried array is x · w (an induction over the points). Hence what point t
  writes back is, at row p and column n, gelu (∑ k, adj (400·t + p, k) · (x · w) (k, n) + b n): rows 400·t … of the
  layer. The 25 blocks tile the 10000 rows, so the array after the run is the layer.
-/
import proofs.«162039_g45947560132727_cont_8to1_c_29_4_alg».proof.Proof.Gen.KernelIdeal.Value
import proofs.«162039_g45947560132727_cont_8to1_c_29_4_alg».proof.Proof.PointContents
import proofs.«162039_g45947560132727_cont_8to1_c_29_4_alg».proof.Proof.PayloadAt
import proofs.«162039_g45947560132727_cont_8to1_c_29_4_alg».proof.Proof.GcnLayer
import Idealize.ShloMosaic.Lib.Pipeline.Value
import Idealize.ShloMosaic.Lib.StableHlo.Run
import Idealize.ShloMosaic.Lib.ValueLayout
import Idealize.ShloMosaic.Lib.ValueIdx

noncomputable section

namespace Cert.KernelIdeal.KernelLayer

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Gcn

variable (m : (ℓ : Loc nD τ sig) → Buf (Elt Ideal) ℓ) (ρ : Dev nD → PrngReg)

/-! ## The blocks and arrays under names of literal type -/

abbrev adjRows (c : Dev nD) (t : Fin cfg0.N) : Vec Ideal S400x10000 .f32 := iblk m c 0 t
abbrev featBlk (c : Dev nD) (t : Fin cfg0.N) : Vec Ideal S10000x128 .f32 := iblk m c 1 t
abbrev wBlk (c : Dev nD) (t : Fin cfg0.N) : Vec Ideal S128x128 .f32 := iblk m c 2 t
abbrev biasBlk (c : Dev nD) (t : Fin cfg0.N) : Vec Ideal S1x128 .f32 := iblk m c 3 t

abbrev featArr (c : Dev nD) : Vec Ideal S10000x128 .f32 := V m c main_arg0
abbrev adjArr (c : Dev nD) : Vec Ideal S10000x10000 .f32 := V m c main_arg1
abbrev wArr (c : Dev nD) : Vec Ideal S128x128 .f32 := V m c main_arg2
abbrev biasRow (c : Dev nD) : Vec Ideal S1x128 .f32 := V m c main_v0
abbrev biasArr (c : Dev nD) : Vec Ideal S128 .f32 := m ((c : Thread nD τ).loc main_arg3)

/-- The grid's first point. -/
abbrev t0 : Fin cfg0.N := ⟨0, by rw [show cfg0.N = 25 from N_0]; decide⟩

/-! ## Where each window's block sits -/

/-- The printed index maps over the grid: the adjacency and the result move one block of rows per point, the other
    three windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point t's adjacency block at (p, k) is the adjacency at (400·t + p, k). -/
theorem adjRows_at (c : Dev nD) (t : Fin cfg0.N) (i : S400x10000.Idx) (j : S10000x10000.Idx)
    (h0 : (j 0).val = 400 * t.val + (i 0).val) (h1 : (j 1).val = (i 1).val) :
    adjRows m c t i = adjArr m c j := by
  show ((cfg0.win 0).blk t).view.read (Elt Ideal) (V m c (Pipeline.arrRef spec0 0)) i = _
  rw [View.read_apply]
  show V m c main_arg1 _ = V m c main_arg1 j
  refine congrArg (V m c main_arg1) (funext fun a => Fin.ext ?_)
  obtain ⟨e0, e1, -⟩ := idx_facts t
  match a with
  | ⟨0, _⟩ => show win0_0.index t (0 : Fin 2) * 400 + 1 * (i 0).val = (j 0).val; omega
  | ⟨1, _⟩ => show win0_0.index t (1 : Fin 2) * 10000 + 1 * (i 1).val = (j 1).val; omega

/-- Every point's feature block is the feature array. -/
theorem featBlk_at (c : Dev nD) (t : Fin cfg0.N) (i : S10000x128.Idx) : featBlk m c t i = featArr m c i := by
  show ((cfg0.win 1).blk t).view.read (Elt Ideal) (V m c (Pipeline.arrRef spec0 1)) i = _
  rw [View.read_apply]
  show V m c main_arg0 _ = V m c main_arg0 i
  refine congrArg (V m c main_arg0) (funext fun a => Fin.ext ?_)
  obtain ⟨-, -, e2, e3, -⟩ := idx_facts t
  match a with
  | ⟨0, _⟩ => show win0_1.index t (0 : Fin 2) * 10000 + 1 * (i 0).val = (i 0).val; omega
  | ⟨1, _⟩ => show win0_1.index t (1 : Fin 2) * 128 + 1 * (i 1).val = (i 1).val; omega

/-- Every point's weight block is the weight array. -/
theorem wBlk_at (c : Dev nD) (t : Fin cfg0.N) (i : S128x128.Idx) : wBlk m c t i = wArr m c i := by
  show ((cfg0.win 2).blk t).view.read (Elt Ideal) (V m c (Pipeline.arrRef spec0 2)) i = _
  rw [View.read_apply]
  show V m c main_arg2 _ = V m c main_arg2 i
  refine congrArg (V m c main_arg2) (funext fun a => Fin.ext ?_)
  obtain ⟨-, -, -, -, e4, e5, -⟩ := idx_facts t
  match a with
  | ⟨0, _⟩ => show win0_2.index t (0 : Fin 2) * 128 + 1 * (i 0).val = (i 0).val; omega
  | ⟨1, _⟩ => show win0_2.index t (1 : Fin 2) * 128 + 1 * (i 1).val = (i 1).val; omega

/-- Every point's bias block is the bias row. -/
theorem biasBlk_at (c : Dev nD) (t : Fin cfg0.N) (i : S1x128.Idx) : biasBlk m c t i = biasRow m c i := by
  show ((cfg0.win 3).blk t).view.read (Elt Ideal) (V m c (Pipeline.arrRef spec0 3)) i = _
  rw [View.read_apply]
  show V m c main_v0 _ = V m c main_v0 i
  refine congrArg (V m c main_v0) (funext fun a => Fin.ext ?_)
  obtain ⟨-, -, -, -, -, -, e6, e7, -⟩ := idx_facts t
  match a with
  | ⟨0, _⟩ => show win0_3.index t (0 : Fin 2) * 1 + 1 * (i 0).val = (i 0).val; omega
  | ⟨1, _⟩ => show win0_3.index t (1 : Fin 2) * 128 + 1 * (i 1).val = (i 1).val; omega

/-- The bias row the region finds is the bias array laid out as one row. -/
theorem biasRow_at (c : Dev nD) (n : Fin 128) : biasRow m c (ix2 (0 : Fin 1) n) = biasArr m c (ix1 n) := by
  have e : (V m c main_v0 : S1x128.Idx → EReal)
      = shapeCast S1x128 (m ((c : Thread nD τ).loc main_arg3)) shapeCasts_S128_S1x128 := by
    dsimp only [Gen.V, Gen.hostOps0]; after_results; rfl
  show (V m c main_v0 : S1x128.Idx → EReal) (ix2 (0 : Fin 1) n) = _
  rw [e]
  exact shapeCast_a_1a_apply _ _ (0 : Fin 1) n

/-! ## The carried array is x · w at every point -/

/-- What the first point keeps: the second-store operand every point reads. -/
abbrev kept (c : Dev nD) : Vec Ideal S10000x128 .bf16 := k0_pay1 (featBlk m c t0) (wBlk m c t0)

/-- After every point the carried array is what the first point kept: the first point stores it, no later one does. -/
theorem carried_eq (c : Dev nD) : ∀ (n : ℕ) (h : n < cfg0.N), (outsAt0 m c n h).2 = kept m c
  | 0, h => by
    rw [outsAt0_A m c ⟨0, h⟩ rfl]
    dsimp only
    exact PointContents.carried_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _)
      ((hcond0_0 ⟨0, h⟩).mpr rfl) (adjRows m c ⟨0, h⟩) (featBlk m c ⟨0, h⟩) (wBlk m c ⟨0, h⟩) (biasBlk m c ⟨0, h⟩)
  | n + 1, h => by
    have hN : cfg0.N = 25 := N_0
    have hB : ¬(⟨n + 1, h⟩ : Fin cfg0.N).val % 25 = 0 := by dsimp only; omega
    rw [outsAt0_B m c ⟨n + 1, h⟩ hB]
    show (outsAt0 m c n _).2 = _
    exact carried_eq c n _

/-- Entry (k, n) of the kept array is the transformed features of the whole arrays. -/
theorem kept_at (c : Dev nD) (k : Fin 10000) (n n' : Fin 128) (hn : n.val = n'.val) :
    kept m c (ix2 k n) = support (featArr m c) (wArr m c) k n' := by
  obtain rfl : n = n' := Fin.ext hn
  refine (PayloadAt.pay1_at (featBlk m c t0) (wBlk m c t0) k n).trans ?_
  unfold support
  exact Finset.sum_congr rfl fun j _ => by rw [featBlk_at, wBlk_at]

/-- What point t leaves in the output's block: the second store's value of its adjacency rows, the kept array and the
    bias row. -/
theorem block_eq (c : Dev nD) (t : Fin cfg0.N) :
    (outsAt0 m c t.val t.isLt).1 = k0_pay2 (adjRows m c t) (kept m c) (biasBlk m c t) := by
  by_cases h0 : t.val % 25 = 0
  · have hN : cfg0.N = 25 := N_0
    have ht : t = t0 := Fin.ext (by have := t.isLt; show t.val = 0; omega)
    subst ht
    rw [outsAt0_A m c t0 h0]
    dsimp only
    exact PointContents.block_first (F := Ideal) c (grid0.coords t0) (ms0_0 t0) (hs0_0 t0) (ms0_1 t0) (hs0_1 t0) (ms0_2 t0) (hs0_2 t0) (ms0_3 t0) (hs0_3 t0) (ms0_4 t0) (hs0_4 t0) scM0_0 (Memref.isWhole_whole _)
      ((hcond0_0 t0).mpr h0) (adjRows m c t0) (featBlk m c t0) (wBlk m c t0) (biasBlk m c t0)
  · rw [outsAt0_B m c t h0]
    dsimp only
    refine (PointContents.block_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun h => h0 ((hcond0_0 t).mp h)) (adjRows m c t) (featBlk m c t) (wBlk m c t) (biasBlk m c t)
      (outsAt0 m c (t.val - 1) (Nat.lt_of_le_of_lt (Nat.sub_le _ _) t.isLt)).2).trans ?_
    exact congrArg (fun s => k0_pay2 (adjRows m c t) s (biasBlk m c t))
      (carried_eq m c (t.val - 1) (Nat.lt_of_le_of_lt (Nat.sub_le _ _) t.isLt))

/-! ## From the blocks to the array -/

/-- The layer of the arrays as the region finds them. -/
abbrev result (c : Dev nD) : Vec Ideal S10000x128 .f32 :=
  layer (featArr m c) (adjArr m c) (wArr m c) (biasArr m c)

/-- What point t writes back is rows 400·t … 400·t + 399 of the layer. -/
theorem flushed_eq (c : Dev nD) (t : Fin cfg0.N) :
    (dats m 0 c).flushed 4 t = ((cfg0.win 4).blk t).view.read (Elt Ideal) (result m c) := by
  rw [flushed4, block_eq]
  funext y
  show k0_pay2 (adjRows m c t) (kept m c) (biasBlk m c t) y = result m c (((cfg0.win 4).blk t).view.emb y)
  obtain ⟨-, -, -, -, -, -, -, -, e8, e9⟩ := idx_facts t
  have hr : ((((cfg0.win 4).blk t).view.emb y) 0).val = 400 * t.val + (y 0).val := by
    show win0_4.index t (0 : Fin 2) * 400 + 1 * (y 0).val = _; omega
  have hc : (y 1).val = ((((cfg0.win 4).blk t).view.emb y) 1).val := by
    show _ = win0_4.index t (1 : Fin 2) * 128 + 1 * (y 1).val; omega
  refine (PayloadAt.pay2_idx (adjRows m c t) (kept m c) (biasBlk m c t) y).trans ?_
  refine congrArg gelu ?_
  unfold preact
  refine congrArg₂ (· + ·) (Finset.sum_congr rfl fun k _ => congrArg₂ (· * ·) ?_ ?_) ?_
  · exact adjRows_at m c t _ _ hr rfl
  · exact kept_at m c k _ _ hc
  · rw [biasBlk_at]
    refine (biasRow_at m c _).trans (congrArg (biasArr m c) ?_)
    exact funext fun a => Fin.ext (by match a with | ⟨0, _⟩ => exact hc)

/-- An index of the array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]
  exact Iff.rfl

/-- Row r of the array lies in the block of point r / 400: the 25 blocks tile the rows. -/
theorem covered (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  obtain ⟨t, ht⟩ : ∃ t : Fin cfg0.N, t.val = (i 0).val / 400 := ⟨⟨(i 0).val / 400, by omega⟩, rfl⟩
  refine ⟨t, flush0_4 t, ?_⟩
  rw [mem_blk]
  obtain ⟨-, -, -, -, -, -, -, -, e8, e9⟩ := idx_facts t
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 128 ≤ (i 1).val ∧ (i 1).val < win0_4.index t (1 : Fin 2) * 128 + 128
    omega

/-- The result array after the run is the layer of the arrays as the region finds them. -/
theorem final (c : Dev nD) : (dats m 0 c).arrAt 4 cfg0.N = result m c :=
  (dats m 0 c).arrAt_eq_of_cover 4 (result m c) (fun t _ => flushed_eq m c t) covered

/-- The layer of the argument arrays as launched: the region finds the three staged arguments untouched. -/
theorem result_eq (c : Dev nD) :
    result m c = layer (m ((c : Thread nD τ).loc main_arg0)) (m ((c : Thread nD τ).loc main_arg1))
      (m ((c : Thread nD τ).loc main_arg2)) (m ((c : Thread nD τ).loc main_arg3)) := by
  show layer (V m c main_arg0) (V m c main_arg1) (V m c main_arg2) _ = _
  rw [V_main_arg0, V_main_arg1, V_main_arg2]

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (result_eq m c), (h c).2⟩)
    (run_blocks m ρ)

end Cert.KernelIdeal.KernelLayer

end
-- ==== Proof.lean ====
/-
  One graph-convolution layer, out = gelu (adj · (x · w) + b), computed by a pipelined kernel over 25 blocks of 400
  adjacency rows (x · w kept in a carried array at the first block and reused by the others) against the plain
  two-product reference. Over the extended reals a change of float format is the identity and a matrix product into
  a zero accumulator is the host's product, so both programs end with, at row i and column n,

      gelu (∑ k, adj (i, k) · (∑ j, x (k, j) · w (j, n)) + b n),

  the sums nested the same way on both sides. The one algebraic step is the commutation u · (u · u) = (u · u) · u in
  the cube of the tanh-form GELU; it holds for all extended reals, so the finiteness of the inputs is not used.

  Proof/GcnLayer.lean states the layer; Proof/RefLayer.lean reads the reference's operations as it;
  Proof/PayloadAt.lean reads the kernel body's two stored values at an index, Proof/PointContents.lean what one grid
  point leaves behind, and Proof/KernelLayer.lean carries the kept array across the points and tiles the 25 written
  blocks into the result array.
-/
import proofs.«162039_g45947560132727_cont_8to1_c_29_4_alg».proof.Defs
import proofs.«162039_g45947560132727_cont_8to1_c_29_4_alg».proof.Proof.Gen.Kernel
import proofs.«162039_g45947560132727_cont_8to1_c_29_4_alg».proof.Proof.Gen.Kernel.Skeleton
import proofs.«162039_g45947560132727_cont_8to1_c_29_4_alg».proof.Proof.Gen.Kernel.Launch
import proofs.«162039_g45947560132727_cont_8to1_c_29_4_alg».proof.Proof.Gen.Kernel.Points
import proofs.«162039_g45947560132727_cont_8to1_c_29_4_alg».proof.Proof.Gen.Kernel.Frame
import proofs.«162039_g45947560132727_cont_8to1_c_29_4_alg».proof.Proof.Gen.KernelIdeal
import proofs.«162039_g45947560132727_cont_8to1_c_29_4_alg».proof.Proof.Gen.KernelIdeal.Skeleton
import proofs.«162039_g45947560132727_cont_8to1_c_29_4_alg».proof.Proof.Gen.KernelIdeal.Launch
import proofs.«162039_g45947560132727_cont_8to1_c_29_4_alg».proof.Proof.Gen.KernelIdeal.Points
import proofs.«162039_g45947560132727_cont_8to1_c_29_4_alg».proof.Proof.Gen.KernelIdeal.Frame
import proofs.«162039_g45947560132727_cont_8to1_c_29_4_alg».proof.Proof.Gen.ReferenceIdeal
import proofs.«162039_g45947560132727_cont_8to1_c_29_4_alg».proof.Proof.Gen.Pre_finite_inputs
import proofs.«162039_g45947560132727_cont_8to1_c_29_4_alg».proof.Proof.Gen.KernelIdeal.Value
import proofs.«162039_g45947560132727_cont_8to1_c_29_4_alg».proof.Proof.Gen.ReferenceIdeal.Run
import proofs.«162039_g45947560132727_cont_8to1_c_29_4_alg».proof.Proof.Gen.ReferenceIdeal.Read
import proofs.«162039_g45947560132727_cont_8to1_c_29_4_alg».proof.Proof.GcnLayer
import proofs.«162039_g45947560132727_cont_8to1_c_29_4_alg».proof.Proof.RefLayer
import proofs.«162039_g45947560132727_cont_8to1_c_29_4_alg».proof.Proof.KernelLayer
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the layer of the (agreeing) argument arrays. -/
theorem algebraic : Cert.algebraic_KernelIdeal_ReferenceIdeal := by
  intro m ρ m' ρ' _ hagree
  refine ⟨_, Cert.KernelIdeal.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefLayer.val_main_v17_eq_layer,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
